-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part1 {F : FTy → Type} [FloatOps F] (main_arg1 : IVec S2x800000 32) (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x800000 32 := broadcastInDim S2x800000 ![] bcast_S_S2x800000 main_c_8
  let main_v25 : IVec S2x800000 1 := cmpi .sge main_arg1 main_v24
  let main_c_9 : IVec S_ 1 := constantI S_ 1 1#1
  let main_v26 : IVec S_ 1 := (fun x v => Host.reduce IntOp.andi x v reducesTo_S2x800000_S_d0_1 h_S_) main_v25 main_c_9
  let main_v27 : IVec S_ 1 := andi main_v23 main_v26
  let main_c_10 : IVec S_ 32 := constantI S_ 32 50000#32
  let main_v28 : IVec S2x800000 32 := broadcastInDim S2x800000 ![] bcast_S_S2x800000 main_c_10
  let main_v29 : IVec S2x800000 1 := cmpi .slt main_arg1 main_v28
  let main_c_11 : IVec S_ 1 := constantI S_ 1 1#1
  let main_v30 : IVec S_ 1 := (fun x v => Host.reduce IntOp.andi x v reducesTo_S2x800000_S_d0_1 h_S_) main_v29 main_c_11
  let main_v31 : IVec S_ 1 := andi main_v27 main_v30
  main_v31

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S50000x128 : Shape := ⟨2, ![50000, 128]⟩
abbrev S5000x256 : Shape := ⟨2, ![5000, 256]⟩
abbrev S5000x128 : Shape := ⟨2, ![5000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S128x128 : Shape := ⟨2, ![128, 128]⟩
abbrev S1x128 : Shape := ⟨2, ![1, 128]⟩
abbrev S8000x128 : Shape := ⟨2, ![8000, 128]⟩

abbrev nBuf : Space → Nat
  | .hbm => 63
  | .vmem => 17
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x256, .f32⟩
  | .hbm, ⟨7, _⟩ => ⟨S50000x128, .f32⟩
  | .hbm, ⟨8, _⟩ => ⟨S50000x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x128, .f32⟩
  | .hbm, ⟨32, _⟩ => ⟨S800000x128, .i1⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S1, .i32⟩
  | .hbm, ⟨45, _⟩ => ⟨S_, .i32⟩
  | .hbm, ⟨46, _⟩ => ⟨S800000x1, .i32⟩
  | .hbm, ⟨47, _⟩ => ⟨S800000x1, .i1⟩
  | .hbm, ⟨48, _⟩ => ⟨S1x1, .i32⟩
  | .hbm, ⟨49, _⟩ => ⟨S800000x1, .i32⟩
  | .hbm, ⟨50, _⟩ => ⟨S800000x1, .i1⟩
  | .hbm, ⟨51, _⟩ => ⟨S800000x1, .i1⟩
  | .hbm, ⟨52, _⟩ => ⟨S_, .i1⟩
  | .hbm, ⟨53, _⟩ => ⟨S800000, .i1⟩
  | .hbm, ⟨54, _⟩ => ⟨S800000x128, .f32⟩
  | .hbm, ⟨55, _⟩ => ⟨S800000x128, .i1⟩
  | .hbm, ⟨56, _⟩ => ⟨S_, .f32⟩
  | .hbm, ⟨57, _⟩ => ⟨S800000x128, .f32⟩
  | .hbm, ⟨58, _⟩ => ⟨S800000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S800000x128, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S8000x128, .f32⟩
  | .local _ .vmem, ⟨9, _⟩ => ⟨S8000x128, .f32⟩
  | .local _ .vmem, ⟨10, _⟩ => ⟨S8000x128, .f32⟩
  | .local _ .vmem, ⟨11, _⟩ => ⟨S8000x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S8000x128, .f32⟩
  | .local _ .vmem, ⟨16, _⟩ => ⟨S8000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S5000x256_o0_0_S5000x128 : S5000x256.Slices ![0, 0] S5000x128
  inb_S5000x128_S5000x128_0_0 : ∀ a, (![0, 0] : Fin 2 → Nat) a + S5000x128.size a ≤ S5000x128.size a
  h_S5000x128 : 0 < S5000x128.numel
  slices_S5000x256_o0_128_S5000x128 : S5000x256.Slices ![0, 128] S5000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S256x128_S128x128_0_0 : S256x128.Slices ![0, 0] S128x128
  slices_S256x128_S128x128_128_0 : S256x128.Slices ![128, 0] S128x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  dot_S5000x256_S256x256_S5000x256_1_0_0_1_n_n_wf : DotDims.WF S5000x256 S256x256 S5000x256 [1] [0] [0] [1] [] []
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S800000x128.size a
  hwx1_1 : ∀ i : grid1.Coords, EltTy.bits .f32 = 32 ∨ (Rect.block (s := S800000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S800000x128.size a
  hwx1_5 : ∀ i : grid1.Coords, EltTy.bits .f32 = 32 ∨ (Rect.block (s := S800000x128) S8000x128.size (cc1_transform_5 i) (hinb1_5 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S50000x128 : Shape := ⟨2, ![50000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000x256, .f32⟩
  | .hbm, ⟨7, _⟩ => ⟨S1x256, .f32⟩
  | .hbm, ⟨8, _⟩ => ⟨S50000x256, .f32⟩
  | .hbm, ⟨9, _⟩ => ⟨S50000x256, .f32⟩
  | .hbm, ⟨10, _⟩ => ⟨S50000x128, .f32⟩
  | .hbm, ⟨11, _⟩ => ⟨S50000x128, .f32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S800000x256, .f32⟩
  | .hbm, ⟨37, _⟩ => ⟨S800000x128, .f32⟩
  | .hbm, ⟨38, _⟩ => ⟨S1x128, .f32⟩
  | .hbm, ⟨39, _⟩ => ⟨S800000x128, .f32⟩
  | .hbm, ⟨40, _⟩ => ⟨S800000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S50000x256_S50000x128_0_0 : S50000x256.Slices ![0, 0] S50000x128
  slices_S50000x256_S50000x128_0_128 : S50000x256.Slices ![0, 128] S50000x128
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  dot_S50000x256_S256x256_S50000x256_1_0_0_1_n_n_wf : DotDims.WF S50000x256 S256x256 S50000x256 [1] [0] [0] [1] [] []
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf

class Facts : Prop extends Facts₀ where

variable [Facts]
-- ==== Proof.Spec.lean ====
/-
  The mathematics both programs compute, written once over plain coordinates.

  Node projection: every node row `p` of `x` (50000 × 256) is sent to `x[p, ·] · W + b` (256 columns); the first 128
  columns are the "q" half and the last 128 the "k" half.  Edge stage: for an edge whose gathered q-row is `a` and
  gathered k-row is `b` (128 entries each) the result row is `[a ⊙ b, a − b] · W_o + b_o`, where `W_o` is 256 × 128.
  The kernel never forms the 256-wide row: it multiplies `a ⊙ b` with the top 128 rows of `W_o`, `a − b` with the
  bottom 128 rows, and adds the two products.  The law joining the two forms is that a sum over 256 = 128 + 128
  positions is the sum over the first 128 plus the sum over the last 128 — commutativity and associativity of
  addition on the extended reals only, so no finiteness is used anywhere.
-/
import Idealize.ShloMosaic.Lib.ValueIdx
import Idealize.ShloMosaic.PureOps.Ideal

noncomputable section

namespace Cert.Spec

open Idealize.ShloMosaic Idealize.ShloMosaic.ValueIdx
open scoped BigOperators

/-- One entry of the node projection: row `p` of `x` against column `j` of `w`, plus the bias at `j`. -/
def proj (x : Fin 50000 → Fin 256 → EReal) (w : Fin 256 → Fin 256 → EReal) (b : Fin 256 → EReal)
    (p : Fin 50000) (j : Fin 256) : EReal :=
  (∑ k : Fin 256, x p k * w k j) + b j

/-- One entry of the edge stage in the kernel's arrangement: `(a ⊙ b) · wt + (a − b) · wb + bo` at column `j`. -/
def edge (a b : Fin 128 → EReal) (wt wb : Fin 128 → Fin 128 → EReal) (bo : Fin 128 → EReal) (j : Fin 128) : EReal :=
  ((∑ k : Fin 128, (a k * b k) * wt k j) + (∑ k : Fin 128, (a k - b k) * wb k j)) + bo j

/-- A sum over 256 positions is the sum over the first 128 plus the sum over the last 128. -/
theorem sum_256_split (f : Fin 256 → EReal) :
    (∑ k : Fin 256, f k) = (∑ k : Fin 128, f ⟨k.val, by omega⟩) + (∑ k : Fin 128, f ⟨128 + k.val, by omega⟩) := by
  have h := Fin.sum_univ_add (M := EReal) (a := 128) (b := 128) (fun k : Fin (128 + 128) => f ⟨k.val, k.isLt⟩)
  refine h.trans ?_
  congr 1

/-- The reference's arrangement — the 256-wide row `[a ⊙ b, a − b]` against all of `wo` — is the kernel's. -/
theorem edge_of_cat (a b : Fin 128 → EReal) (wo : Fin 256 → Fin 128 → EReal) (bo : Fin 128 → EReal) (j : Fin 128)
    (cat : Fin 256 → EReal)
    (hlo : ∀ k : Fin 128, cat ⟨k.val, by omega⟩ = a k * b k)
    (hhi : ∀ k : Fin 128, cat ⟨128 + k.val, by omega⟩ = a k - b k) :
    (∑ k : Fin 256, cat k * wo k j) + bo j
      = edge a b (fun k j => wo ⟨k.val, by omega⟩ j) (fun k j => wo ⟨128 + k.val, by omega⟩ j) bo j := by
  unfold edge
  rw [sum_256_split]
  simp only [hlo, hhi]

/-- The q half (`o = 0`) or k half (`o = 128`) of the node projection as a 50000 × 128 array. -/
def projArr (o : Nat) (ho : o + 128 ≤ 256) (x : (⟨2, ![50000, 256]⟩ : Shape).Idx → EReal)
    (w : (⟨2, ![256, 256]⟩ : Shape).Idx → EReal) (b : Fin 256 → EReal) :
    (⟨2, ![50000, 128]⟩ : Shape).Idx → EReal :=
  fun i => proj (fun p k => x (ix2 p k)) (fun k j => w (ix2 k j)) b ⟨(i 0).val, (i 0).isLt⟩
    ⟨o + (i 1).val, by have h : (i 1).val < 128 := (i 1).isLt; omega⟩

/-- The edge stage as an 800000 × 128 array, from the two gathered arrays, `W_o` and the bias. -/
def edgeArr (A B : (⟨2, ![800000, 128]⟩ : Shape).Idx → EReal) (wo : (⟨2, ![256, 128]⟩ : Shape).Idx → EReal)
    (bo : Fin 128 → EReal) : (⟨2, ![800000, 128]⟩ : Shape).Idx → EReal :=
  fun i => edge (fun k => A (ix2 (⟨(i 0).val, (i 0).isLt⟩ : Fin 800000) k)) (fun k => B (ix2 (⟨(i 0).val, (i 0).isLt⟩ : Fin 800000) k))
    (fun k j => wo (ix2 (⟨k.val, by omega⟩ : Fin 256) j)) (fun k j => wo (ix2 (⟨128 + k.val, by omega⟩ : Fin 256) j)) bo
    ⟨(i 1).val, (i 1).isLt⟩

end Cert.Spec

end
-- ==== Proof.Host.lean ====
/-
  The host side of the kernel's program between its two regions, read as values.

  Before the first region the bias vector is reshaped to one row.  Between the regions the two rows of the
  edge-index array are cut out, and each is used to take rows of the first region's q and k arrays: a negative index
  is counted from the end, the rows are gathered, and a row whose (wrapped) index falls outside [0, 49999] is
  replaced by a fill value.  Where every index already lies in [0, 50000) nothing is wrapped and nothing is filled,
  so each take is the plain gather.  Last, the output weights are cut into their top and bottom halves and the output
  bias is reshaped to one row.
-/
import proofs.«408681_j71794673320040_3_alg».proof.Proof.Gen.KernelIdeal.Frame
import proofs.«408681_j71794673320040_3_alg».proof.Proof.Spec
import Idealize.ShloMosaic.Lib.StableHlo.Run
import Idealize.ShloMosaic.Lib.ReduceAll
import Idealize.ShloMosaic.Lib.StableHlo.Predicate
import Idealize.ShloMosaic.Lib.Pipeline.Value
import Idealize.ShloMosaic.Lib.ValueIdx
import Idealize.ShloMosaic.Lib.ValueLayout

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-! ## The bounds-checked row take, on plain arrays -/

/-- A fold by `and` over one-bit words that are all 1, from 1, is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- A reduce by `and` of an array of ones, from the constant 1, is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x _ fun n _ => hx n

/-- The row index the take uses: a negative index counted from the end (50000 added), any other kept. -/
def wrapVec (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The same as a column of start indices. -/
def wrapCol (v : IVec S800000 32) : IVec S800000x1 32 :=
  broadcastInDim S800000x1 ![0] bcast_S800000_S800000x1_0 (wrapVec v)

/-- The take as the kernel's program spells it: the gathered rows where the wrapped index lies in [0, 49999], a fill
    value elsewhere. -/
def takeMasked (q : FVec Ideal S50000x128 .f32) (v : IVec S800000 32) : FVec Ideal S800000x128 .f32 :=
  select
    (broadcastInDim S800000x128 ![0] bcast_S800000_S800000x128_0
      (Host.reduce IntOp.andi
        (andi (cmpi .sge (wrapCol v) (broadcastInDim S800000x1 ![] bcast_S_S800000x1 (constantI S_ 32 0#32)))
          (cmpi .sle (wrapCol v) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 q (wrapCol v))
    (broadcastInDim S800000x128 ![] bcast_S_S800000x128 (constant S_ .f32 0x7FC00000#32))

/-- A select on a condition that is 1 everywhere is its first operand. -/
theorem select_of_all_one {s : Shape} {α : Type} (c : IVec s 1) (a b : s.Idx → α) (hc : ∀ i, c i = 1#1) : select c a b = a :=
  funext fun i => by
    show Scalar.select (c i) (a i) (b i) = a i
    rw [hc i]
    exact select_one _ _

/-- An index already in [0, 50000) is not wrapped. -/
theorem wrapVec_of_inRange (v : IVec S800000 32) (e : S800000.Idx) (h0 : (0 : Int) ≤ (v e).toInt) : wrapVec v e = v e := by
  show Scalar.select (IntOp.cmpi .slt (v e) 0#32) (IntOp.addi (v e) 50000#32) (v e) = v e
  have hc : ¬ IntOp.cmpi .slt (v e) 0#32 = 1#1 := by
    rw [IntOp.cmpi_slt, show (0#32 : BitVec 32).toInt = 0 from by decide]
    omega
  exact if_neg hc

/-- Where every index is already in [0, 50000) nothing is wrapped and nothing is filled: the take is the gather. -/
theorem takeMasked_of_inRange (q : FVec Ideal S50000x128 .f32) (v : IVec S800000 32)
    (hv : ∀ e, (0 : Int) ≤ (v e).toInt ∧ (v e).toInt < 50000) :
    takeMasked q v = Host.gather gather_S50000x128_S800000x1_S800000x128_1_0_n_n_0_1_1128 q (wrapCol v) := by
  have hw : ∀ e, IntOp.cmpi .sge (wrapVec v e) 0#32 = 1#1 ∧ IntOp.cmpi .sle (wrapVec v e) 49999#32 = 1#1 := by
    intro e
    rw [wrapVec_of_inRange v e (hv e).1, IntOp.cmpi_sge, IntOp.cmpi_sle,
      show (0#32 : BitVec 32).toInt = 0 from by decide, show (49999#32 : BitVec 32).toInt = 49999 from by decide]
    have := hv e
    omega
  unfold takeMasked
  refine select_of_all_one _ _ _ fun i => ?_
  unfold broadcastInDim
  refine reduce_andi_ones _ _ _ _ (fun k => ?_) (fun _ => rfl) _
  show IntOp.andi (IntOp.cmpi .sge (wrapCol v k) 0#32) (IntOp.cmpi .sle (wrapCol v k) 49999#32) = 1#1
  unfold wrapCol broadcastInDim
  rw [(hw _).1, (hw _).2]
  rfl

/-! ## The buffers at the regions' boundaries -/

/-- One row of the edge-index array as a vector of 800000 words. -/
def idxRow0 (ei : IVec S2x800000 32) : IVec S800000 32 :=
  shapeCast S800000 (extractStridedSlice S1x800000 ![0, 0] ei slices_S2x800000_S1x800000_0_0) shapeCasts_S1x800000_S800000
def idxRow1 (ei : IVec S2x800000 32) : IVec S800000 32 :=
  shapeCast S800000 (extractStridedSlice S1x800000 ![1, 0] ei slices_S2x800000_S1x800000_1_0) shapeCasts_S1x800000_S800000

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_v0 (c : Dev nD) : W1 m ρ c (Proc.devRef .tc main_v0)
    = shapeCast S1x256 (m ((c : Thread nD τ).loc main_arg3)) shapeCasts_S256_S1x256 := by
  show StableHlo.after hostOps0 (W0 m ρ c) (Proc.devRef .tc main_v0) = _
  after_results
  rfl

theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results

/-- Contents carried to a reference's buffer type and back are unchanged. -/
theorem ofBuf_toBuf {T : BufTy} (x : TRef sig T) (v : T.Contents (Elt Ideal)) : x.ofBuf (x.toBuf v) = v := by
  obtain ⟨r, h, h2, h3⟩ := x
  subst h
  rfl

section Stretches
variable (X : Valuation τ sig (Elt Ideal))

theorem s1_v3 : StableHlo.after hostOps1 X (Proc.devRef .tc main_v3) = idxRow0 (X (Proc.devRef .tc main_arg1)) := by
  after_results; rfl
theorem s1_v5 : StableHlo.after hostOps1 X (Proc.devRef .tc main_v5) = idxRow1 (X (Proc.devRef .tc main_arg1)) := by
  after_results; rfl
theorem s1_v1_0 : StableHlo.after hostOps1 X (Proc.devRef .tc main_v1_0) = X (Proc.devRef .tc main_v1_0) := by after_results
theorem s1_v1_1 : StableHlo.after hostOps1 X (Proc.devRef .tc main_v1_1) = X (Proc.devRef .tc main_v1_1) := by after_results
theorem s1_arg4 : StableHlo.after hostOps1 X (Proc.devRef .tc main_arg4) = X (Proc.devRef .tc main_arg4) := by after_results
theorem s1_arg5 : StableHlo.after hostOps1 X (Proc.devRef .tc main_arg5) = X (Proc.devRef .tc main_arg5) := by after_results

set_option maxHeartbeats 1000000 in
theorem s2_v6 : StableHlo.after hostOps1_1 X (Proc.devRef .tc main_v6)
    = takeMasked (X (Proc.devRef .tc main_v1_0)) (X (Proc.devRef .tc main_v3)) := by
  have e3 : ∀ h1 h2 h3, (TRef.of main_v3 h1 h2 h3 : TRef sig ⟨S800000, .i32⟩).ofBuf (X (Proc.devRef .tc main_v3))
      = X (Proc.devRef .tc main_v3) := fun _ _ _ => rfl
  have e10 : ∀ h1 h2 h3, (TRef.of main_v1_0 h1 h2 h3 : TRef sig ⟨S50000x128, .f32⟩).ofBuf (X (Proc.devRef .tc main_v1_0))
      = X (Proc.devRef .tc main_v1_0) := fun _ _ _ => rfl
  after_results
  simp only [ofBuf_toBuf]
  rw [e3, e10]
  unfold takeMasked wrapCol wrapVec
  exact cast_eq _ _
set_option maxHeartbeats 1000000 in
theorem s2_v5 : StableHlo.after hostOps1_1 X (Proc.devRef .tc main_v5) = X (Proc.devRef .tc main_v5) := by after_results
set_option maxHeartbeats 1000000 in
theorem s2_v1_1 : StableHlo.after hostOps1_1 X (Proc.devRef .tc main_v1_1) = X (Proc.devRef .tc main_v1_1) := by after_results
set_option maxHeartbeats 1000000 in
theorem s2_arg4 : StableHlo.after hostOps1_1 X (Proc.devRef .tc main_arg4) = X (Proc.devRef .tc main_arg4) := by after_results
set_option maxHeartbeats 1000000 in
theorem s2_arg5 : StableHlo.after hostOps1_1 X (Proc.devRef .tc main_arg5) = X (Proc.devRef .tc main_arg5) := by after_results

set_option maxHeartbeats 1000000 in
theorem s3_v7 : StableHlo.after hostOps1_2 X (Proc.devRef .tc main_v7)
    = takeMasked (X (Proc.devRef .tc main_v1_1)) (X (Proc.devRef .tc main_v5)) := by
  have e5 : ∀ h1 h2 h3, (TRef.of main_v5 h1 h2 h3 : TRef sig ⟨S800000, .i32⟩).ofBuf (X (Proc.devRef .tc main_v5))
      = X (Proc.devRef .tc main_v5) := fun _ _ _ => rfl
  have e11 : ∀ h1 h2 h3, (TRef.of main_v1_1 h1 h2 h3 : TRef sig ⟨S50000x128, .f32⟩).ofBuf (X (Proc.devRef .tc main_v1_1))
      = X (Proc.devRef .tc main_v1_1) := fun _ _ _ => rfl
  after_results
  simp only [ofBuf_toBuf]
  rw [e5, e11]
  unfold takeMasked wrapCol wrapVec
  exact cast_eq _ _
set_option maxHeartbeats 1000000 in
theorem s3_v6 : StableHlo.after hostOps1_2 X (Proc.devRef .tc main_v6) = X (Proc.devRef .tc main_v6) := by after_results
set_option maxHeartbeats 1000000 in
theorem s3_arg4 : StableHlo.after hostOps1_2 X (Proc.devRef .tc main_arg4) = X (Proc.devRef .tc main_arg4) := by after_results
set_option maxHeartbeats 1000000 in
theorem s3_arg5 : StableHlo.after hostOps1_2 X (Proc.devRef .tc main_arg5) = X (Proc.devRef .tc main_arg5) := by after_results

theorem s4_v8 : StableHlo.after hostOps1_3 X (Proc.devRef .tc main_v8)
    = extractStridedSlice S128x128 ![0, 0] (X (Proc.devRef .tc main_arg4)) slices_S256x128_S128x128_0_0 := by
  after_results
theorem s4_v9 : StableHlo.after hostOps1_3 X (Proc.devRef .tc main_v9)
    = extractStridedSlice S128x128 ![128, 0] (X (Proc.devRef .tc main_arg4)) slices_S256x128_S128x128_128_0 := by
  after_results
theorem s4_v10 : StableHlo.after hostOps1_3 X (Proc.devRef .tc main_v10)
    = shapeCast S1x128 (X (Proc.devRef .tc main_arg5)) shapeCasts_S128_S1x128 := by
  after_results; rfl
theorem s4_v6 : StableHlo.after hostOps1_3 X (Proc.devRef .tc main_v6) = X (Proc.devRef .tc main_v6) := by after_results
theorem s4_v7 : StableHlo.after hostOps1_3 X (Proc.devRef .tc main_v7) = X (Proc.devRef .tc main_v7) := by after_results

end Stretches

/-! ## What the second region is entered with -/

theorem W6_v6 (c : Dev nD) : W6 m ρ c (Proc.devRef .tc main_v6)
    = takeMasked (W2 m ρ c (Proc.devRef .tc main_v1_0)) (idxRow0 (m ((c : Thread nD τ).loc main_arg1))) := by
  show StableHlo.after hostOps1_3 (StableHlo.after hostOps1_2 (StableHlo.after hostOps1_1 (StableHlo.after hostOps1 (W2 m ρ c))))
    (Proc.devRef .tc main_v6) = _
  rw [s4_v6, s3_v6, s2_v6, s1_v1_0, s1_v3, W2_arg1]
theorem W6_v7 (c : Dev nD) : W6 m ρ c (Proc.devRef .tc main_v7)
    = takeMasked (W2 m ρ c (Proc.devRef .tc main_v1_1)) (idxRow1 (m ((c : Thread nD τ).loc main_arg1))) := by
  show StableHlo.after hostOps1_3 (StableHlo.after hostOps1_2 (StableHlo.after hostOps1_1 (StableHlo.after hostOps1 (W2 m ρ c))))
    (Proc.devRef .tc main_v7) = _
  rw [s4_v7, s3_v7, s2_v1_1, s2_v5, s1_v1_1, s1_v5, W2_arg1]
theorem W6_v8 (c : Dev nD) : W6 m ρ c (Proc.devRef .tc main_v8)
    = extractStridedSlice S128x128 ![0, 0] (m ((c : Thread nD τ).loc main_arg4)) slices_S256x128_S128x128_0_0 := by
  show StableHlo.after hostOps1_3 (StableHlo.after hostOps1_2 (StableHlo.after hostOps1_1 (StableHlo.after hostOps1 (W2 m ρ c))))
    (Proc.devRef .tc main_v8) = _
  rw [s4_v8, s3_arg4, s2_arg4, s1_arg4, W2_arg4]
theorem W6_v9 (c : Dev nD) : W6 m ρ c (Proc.devRef .tc main_v9)
    = extractStridedSlice S128x128 ![128, 0] (m ((c : Thread nD τ).loc main_arg4)) slices_S256x128_S128x128_128_0 := by
  show StableHlo.after hostOps1_3 (StableHlo.after hostOps1_2 (StableHlo.after hostOps1_1 (StableHlo.after hostOps1 (W2 m ρ c))))
    (Proc.devRef .tc main_v9) = _
  rw [s4_v9, s3_arg4, s2_arg4, s1_arg4, W2_arg4]
theorem W6_v10 (c : Dev nD) : W6 m ρ c (Proc.devRef .tc main_v10)
    = shapeCast S1x128 (m ((c : Thread nD τ).loc main_arg5)) shapeCasts_S128_S1x128 := by
  show StableHlo.after hostOps1_3 (StableHlo.after hostOps1_2 (StableHlo.after hostOps1_1 (StableHlo.after hostOps1 (W2 m ρ c))))
    (Proc.devRef .tc main_v10) = _
  rw [s4_v10, s3_arg5, s2_arg5, s1_arg5, W2_arg5]

end Cert.KernelIdeal.HostValue
end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.Proj.lean ====
/-
  What the first region leaves in its two output arrays.

  Each grid point loads a block of 5000 node rows, the whole 256 × 256 projection weights and the bias row, forms
  block · weights + bias (a matrix product into a zero accumulator, read entry by entry as the sum over the 256
  contracted positions), and stores columns 0 … 127 to the q array's block and columns 128 … 255 to the k array's.
  The ten blocks tile the 50000 rows, so each array ends holding its half of the node projection of the whole input.
-/
import proofs.«408681_j71794673320040_3_alg».proof.Proof.Gen.KernelIdeal.Frame
import proofs.«408681_j71794673320040_3_alg».proof.Proof.Spec
import proofs.«408681_j71794673320040_3_alg».proof.Proof.LibOneAxisContraction
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## The body's arithmetic at an index -/

/-- Off the contracted axis the left operand's index reads the result's row. -/
theorem lhs_axis0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- On the contracted axis it reads the contraction coordinate. -/
theorem lhs_axis1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- The right operand's row is the contraction coordinate. -/
theorem rhs_axis0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- Its column is the result's column. -/
theorem rhs_axis1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The 256-wide row block before it is cut in two: at row `p` and column `r`, row `p` of the block against column `r`
    of the weights, plus the bias at `r`. -/
theorem pay1_apply (x0 : Vec Ideal S5000x256 .f32) (x1 : Vec Ideal S256x256 .f32) (x2 : Vec Ideal S1x256 .f32)
    (p : Fin 5000) (r : Fin 256) :
    k0_pay1 x0 x1 x2 (ix2 p r) = (∑ k : Fin 256, x0 (ix2 p k) * x1 (ix2 k r)) + x2 (ix2 (0 : Fin 1) r) := by
  unfold k0_pay1
  rw [shapeCast_self]
  show (matmul (F := Ideal) dot_S5000x256_S256x256_S5000x256_1_0_0_1_n_n (some .fp32) x0 x1 (constant (F := Ideal) S5000x256 .f32 0x00000000#32) (ix2 p r) : EReal)
      + broadcastTo S5000x256 x2 broadcasts_S1x256_S5000x256 (ix2 p r) = _
  rw [Cert.Dots.matmul_zero_apply_of dot_S5000x256_S256x256_S5000x256_1_0_0_1_n_n 256 rfl rfl (some .fp32) x0 x1 (ix2 p r)
      (fun k => ix2 p k) (fun k => ix2 k r)
      (fun k => by
        have hk := contrEquiv1_symm_val dot_S5000x256_S256x256_S5000x256_1_0_0_1_n_n 256 rfl rfl k
        exact funext fun a => Fin.ext (by
          match a with
          | ⟨0, _⟩ => exact lhs_axis0 _ _
          | ⟨1, _⟩ => exact (lhs_axis1 _ _).trans hk))
      (fun k => by
        have hk := contrEquiv1_symm_val dot_S5000x256_S256x256_S5000x256_1_0_0_1_n_n 256 rfl rfl k
        exact funext fun a => Fin.ext (by
          match a with
          | ⟨0, _⟩ => exact (rhs_axis0 _ _).trans hk
          | ⟨1, _⟩ => exact rhs_axis1 _ _)),
    broadcastTo_apply x2 broadcasts_S1x256_S5000x256 (ix2 p r) (ix2 (0 : Fin 1) r) (fun a => by
      match a with
      | ⟨0, _⟩ => show 0 = if (1 : Nat) = 1 then 0 else p.val; rw [if_pos rfl]
      | ⟨1, _⟩ => show r.val = if (256 : Nat) = 1 then 0 else r.val; rw [if_neg (by decide)])]

/-- The first half: columns 0 … 127. -/
theorem pay2_apply (x0 : Vec Ideal S5000x256 .f32) (x1 : Vec Ideal S256x256 .f32) (x2 : Vec Ideal S1x256 .f32)
    (p : Fin 5000) (q : Fin 128) :
    k0_pay2 x0 x1 x2 (ix2 p q)
      = (∑ k : Fin 256, x0 (ix2 p k) * x1 (ix2 k (⟨q.val, by omega⟩ : Fin 256))) + x2 (ix2 (0 : Fin 1) (⟨q.val, by omega⟩ : Fin 256)) := by
  unfold k0_pay2
  rw [← pay1_apply]
  exact extractStridedSlice_apply _ _ _ (ix2 p q) (ix2 p (⟨q.val, by omega⟩ : Fin 256)) (fun a => by
    match a with
    | ⟨0, _⟩ => show p.val = 0 + p.val; omega
    | ⟨1, _⟩ => show q.val = 0 + q.val; omega)

/-- The second half: columns 128 … 255. -/
theorem pay3_apply (x0 : Vec Ideal S5000x256 .f32) (x1 : Vec Ideal S256x256 .f32) (x2 : Vec Ideal S1x256 .f32)
    (p : Fin 5000) (q : Fin 128) :
    k0_pay3 x0 x1 x2 (ix2 p q)
      = (∑ k : Fin 256, x0 (ix2 p k) * x1 (ix2 k (⟨128 + q.val, by omega⟩ : Fin 256))) + x2 (ix2 (0 : Fin 1) (⟨128 + q.val, by omega⟩ : Fin 256)) := by
  unfold k0_pay3
  rw [← pay1_apply]
  exact extractStridedSlice_apply _ _ _ (ix2 p q) (ix2 p (⟨128 + q.val, by omega⟩ : Fin 256)) (fun a => by
    match a with
    | ⟨0, _⟩ => show p.val = 0 + p.val; omega
    | ⟨1, _⟩ => show 128 + q.val = 128 + q.val; rfl)

/-! ## From the blocks to the arrays -/

theorem hz : (![0, 0] : Fin 2 → Nat) = fun _ => 0 := funext fun a => by fin_cases a <;> rfl

/-- The printed index maps over the grid: point `t` brings row block `t` of `x` and of both results, column block 0, and the
    whole of the weights and of the bias. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of point `t`'s block of `x` is row `5000 t + p` of `x`. -/
theorem x_blk (c : Dev nD) (t : Fin cfg0.N) (p : Fin 5000) (k : Fin 256) (P : Fin 50000) (hP : P.val = t.val * 5000 + p.val) :
    iblk0 (F := Ideal) V c 0 t (ix2 p k) = V c main_arg0 (ix2 P k) := by
  obtain ⟨e0, e1, -⟩ := idx_facts t
  unfold iblk0
  rw [View.read_apply]
  show V c main_arg0 (((cfg0.win 0).blk t).view.emb (ix2 p k)) = V c main_arg0 (ix2 P k)
  congr 1
  funext a
  apply Fin.ext
  match a with
  | ⟨0, _⟩ => show win0_0.index t (0 : Fin 2) * 5000 + 1 * p.val = P.val; rw [e0, hP]; omega
  | ⟨1, _⟩ => show win0_0.index t (1 : Fin 2) * 256 + 1 * k.val = k.val; rw [e1]; omega

/-- Every point's block of the weights is the weights. -/
theorem w_blk (c : Dev nD) (t : Fin cfg0.N) (k r : Fin 256) :
    iblk0 (F := Ideal) V c 1 t (ix2 k r) = V c main_arg2 (ix2 k r) := by
  obtain ⟨-, -, e0, e1, -⟩ := idx_facts t
  unfold iblk0
  rw [View.read_apply]
  show V c main_arg2 (((cfg0.win 1).blk t).view.emb (ix2 k r)) = V c main_arg2 (ix2 k r)
  congr 1
  funext a
  apply Fin.ext
  match a with
  | ⟨0, _⟩ => show win0_1.index t (0 : Fin 2) * 256 + 1 * k.val = k.val; rw [e0]; omega
  | ⟨1, _⟩ => show win0_1.index t (1 : Fin 2) * 256 + 1 * r.val = r.val; rw [e1]; omega

/-- Every point's block of the bias is the bias. -/
theorem b_blk (c : Dev nD) (t : Fin cfg0.N) (r : Fin 256) :
    iblk0 (F := Ideal) V c 2 t (ix2 (0 : Fin 1) r) = V c main_v0 (ix2 (0 : Fin 1) r) := by
  obtain ⟨-, -, -, -, e0, e1, -⟩ := idx_facts t
  unfold iblk0
  rw [View.read_apply]
  show V c main_v0 (((cfg0.win 2).blk t).view.emb (ix2 (0 : Fin 1) r)) = V c main_v0 (ix2 (0 : Fin 1) r)
  congr 1
  funext a
  apply Fin.ext
  match a with
  | ⟨0, _⟩ => show win0_2.index t (0 : Fin 2) * 1 + 1 * 0 = 0; rw [e0]
  | ⟨1, _⟩ => show win0_2.index t (1 : Fin 2) * 256 + 1 * r.val = r.val; rw [e1]; omega

/-- What point `t` writes back to the q array is block `t` of the q half of the projection. -/
theorem flushed3_eq (c : Dev nD) (t : Fin cfg0.N) :
    (dat0 (F := Ideal) V c).flushed 3 t = ((cfg0.win 3).blk t).view.read (Elt Ideal)
      (Cert.Spec.projArr 0 (by omega) (V c main_arg0) (V c main_arg2) (fun j => V c main_v0 (ix2 (0 : Fin 1) j))) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x256) hz, View.ld_unit_zero (S := S1x256) hz]
  obtain ⟨-, -, -, -, -, -, e0, e1, -⟩ := idx_facts t
  funext j
  obtain ⟨p, q, rfl⟩ : ∃ (p : Fin 5000) (q : Fin 128), j = ix2 p q := ⟨j 0, j 1, eq_ix2 (n0 := 5000) (n1 := 128) j⟩
  have hr : ((((cfg0.win 3).blk t).view.emb (ix2 p q)) 0).val = t.val * 5000 + p.val := by
    show win0_3.index t (0 : Fin 2) * 5000 + 1 * p.val = _; rw [e0]; omega
  have hc : ((((cfg0.win 3).blk t).view.emb (ix2 p q)) 1).val = q.val := by
    show win0_3.index t (1 : Fin 2) * 128 + 1 * q.val = _; rw [e1]; omega
  show k0_pay2 (iblk0 V c 0 t) (iblk0 V c 1 t) (iblk0 V c 2 t) (ix2 p q)
    = Cert.Spec.projArr 0 (by omega) (V c main_arg0) (V c main_arg2) (fun j => V c main_v0 (ix2 (0 : Fin 1) j)) (((cfg0.win 3).blk t).view.emb (ix2 p q))
  generalize ((cfg0.win 3).blk t).view.emb (ix2 p q) = i at hr hc
  rw [pay2_apply]
  have hq : (⟨q.val, by omega⟩ : Fin 256) = ⟨0 + (i 1).val, by have h : (i 1).val < 128 := (i 1).isLt; omega⟩ := Fin.ext (by show q.val = 0 + (i 1).val; omega)
  rw [hq, b_blk]
  unfold Cert.Spec.projArr Cert.Spec.proj
  refine congrArg₂ (· + ·) (Finset.sum_congr rfl fun k _ => ?_) rfl
  rw [x_blk V c t p k ⟨(i 0).val, (i 0).isLt⟩ hr, w_blk]

/-- What point `t` writes back to the k array is block `t` of the k half of the projection. -/
theorem flushed4_eq (c : Dev nD) (t : Fin cfg0.N) :
    (dat0 (F := Ideal) V c).flushed 4 t = ((cfg0.win 4).blk t).view.read (Elt Ideal)
      (Cert.Spec.projArr 128 (by omega) (V c main_arg0) (V c main_arg2) (fun j => V c main_v0 (ix2 (0 : Fin 1) j))) := by
  show (cfg0.win 4).cut (grid0.coords t) ((dat0 V c).after 4 t) = _
  rw [after0_4]
  unfold out0_4
  rw [View.canon_unit_zero hz]
  simp only [View.ld_unit_zero (S := S5000x256) hz, View.ld_unit_zero (S := S256x256) hz, View.ld_unit_zero (S := S1x256) hz]
  obtain ⟨-, -, -, -, -, -, -, -, e0, e1⟩ := idx_facts t
  funext j
  obtain ⟨p, q, rfl⟩ : ∃ (p : Fin 5000) (q : Fin 128), j = ix2 p q := ⟨j 0, j 1, eq_ix2 (n0 := 5000) (n1 := 128) j⟩
  have hr : ((((cfg0.win 4).blk t).view.emb (ix2 p q)) 0).val = t.val * 5000 + p.val := by
    show win0_4.index t (0 : Fin 2) * 5000 + 1 * p.val = _; rw [e0]; omega
  have hc : ((((cfg0.win 4).blk t).view.emb (ix2 p q)) 1).val = q.val := by
    show win0_4.index t (1 : Fin 2) * 128 + 1 * q.val = _; rw [e1]; omega
  show k0_pay3 (iblk0 V c 0 t) (iblk0 V c 1 t) (iblk0 V c 2 t) (ix2 p q)
    = Cert.Spec.projArr 128 (by omega) (V c main_arg0) (V c main_arg2) (fun j => V c main_v0 (ix2 (0 : Fin 1) j)) (((cfg0.win 4).blk t).view.emb (ix2 p q))
  generalize ((cfg0.win 4).blk t).view.emb (ix2 p q) = i at hr hc
  rw [pay3_apply]
  have hq : (⟨128 + q.val, by omega⟩ : Fin 256) = ⟨128 + (i 1).val, by have h : (i 1).val < 128 := (i 1).isLt; omega⟩ := Fin.ext (by show 128 + q.val = 128 + (i 1).val; omega)
  rw [hq, b_blk]
  unfold Cert.Spec.projArr Cert.Spec.proj
  refine congrArg₂ (· + ·) (Finset.sum_congr rfl fun k _ => ?_) rfl
  rw [x_blk V c t p k ⟨(i 0).val, (i 0).isLt⟩ hr, w_blk]

/-- An index of the q array is in point `t`'s block iff each coordinate is in the block's range on its axis. -/
theorem mem_blk3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1_0).slice (win0_3.rect t)).set ↔ _
  rw [View.set_slice_whole, Rect.mem_set_unit]
  exact Iff.rfl

/-- The same for the k array. -/
theorem mem_blk4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v1_1).slice (win0_4.rect t)).set ↔ _
  rw [View.set_slice_whole, Rect.mem_set_unit]
  exact Iff.rfl

/-- Row `r` of the q array is in the block of point `r / 5000`. -/
theorem cover3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; rw [hN]; omega⟩, rfl⟩
  obtain ⟨-, -, -, -, -, -, e0, e1, -⟩ := idx_facts t
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- Row `r` of the k array likewise. -/
theorem cover4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; rw [hN]; omega⟩, rfl⟩
  obtain ⟨-, -, -, -, -, -, -, -, e0, e1⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 128 ≤ (i 1).val ∧ (i 1).val < win0_4.index t (1 : Fin 2) * 128 + 128; rw [e1]; omega

/-! ## The two arrays after the region -/

/-- After the first region the q array holds, at row `p` and column `j`, row `p` of `x` against column `j` of the
    projection weights plus the bias at `j`. -/
theorem final3 (c : Dev nD) :
    (dat0 (F := Ideal) V c).arrAt 3 cfg0.N
      = Cert.Spec.projArr 0 (by omega) (V c main_arg0) (V c main_arg2) (fun j => V c main_v0 (ix2 (0 : Fin 1) j)) :=
  (dat0 (F := Ideal) V c).arrAt_eq_of_cover 3 _ (fun t _ => flushed3_eq V c t) cover3

/-- The k array likewise, from columns 128 … 255. -/
theorem final4 (c : Dev nD) :
    (dat0 (F := Ideal) V c).arrAt 4 cfg0.N
      = Cert.Spec.projArr 128 (by omega) (V c main_arg0) (V c main_arg2) (fun j => V c main_v0 (ix2 (0 : Fin 1) j)) :=
  (dat0 (F := Ideal) V c).arrAt_eq_of_cover 4 _ (fun t _ => flushed4_eq V c t) cover4

end Cert.KernelIdeal.ProjValue

end
-- ==== Proof.Edge.lean ====
/-
  What the second region leaves in its output array.

  Each grid point loads a block of 8000 gathered q rows and 8000 gathered k rows, the two 128 × 128 halves of the
  output weights and the bias row, and stores (q ⊙ k) · top + (q − k) · bottom + bias: two matrix products into zero
  accumulators, each read entry by entry as the sum over its 128 contracted positions.  The hundred blocks tile the
  800000 edges, so the array ends holding the edge stage of the whole gathered arrays.
-/
import proofs.«408681_j71794673320040_3_alg».proof.Proof.Gen.KernelIdeal.Frame
import proofs.«408681_j71794673320040_3_alg».proof.Proof.Spec
import proofs.«408681_j71794673320040_3_alg».proof.Proof.LibOneAxisContraction
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## One matrix product into the zero accumulator, read at an entry -/

theorem lhs_axis0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_axis1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_axis0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_axis1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The product of an 8000 × 128 block with a 128 × 128 matrix, at row `p` and column `q`: the sum over the 128
    shared positions. -/
theorem matmul_at (l : FVec Ideal S8000x128 .f32) (r : FVec Ideal S128x128 .f32) (p : Fin 8000) (q : Fin 128) :
    matmul (F := Ideal) dot_S8000x128_S128x128_S8000x128_1_0_0_1_n_n (some .fp32) l r (constant (F := Ideal) S8000x128 .f32 0x00000000#32) (ix2 p q)
      = ∑ k : Fin 128, l (ix2 p k) * r (ix2 k q) := by
  refine Cert.Dots.matmul_zero_apply_of dot_S8000x128_S128x128_S8000x128_1_0_0_1_n_n 128 rfl rfl (some .fp32) l r (ix2 p q)
    (fun k => ix2 p k) (fun k => ix2 k q) (fun k => ?_) (fun k => ?_)
  · have hk := contrEquiv1_symm_val dot_S8000x128_S128x128_S8000x128_1_0_0_1_n_n 128 rfl rfl k
    exact funext fun a => Fin.ext (by
      match a with
      | ⟨0, _⟩ => exact lhs_axis0 _ _
      | ⟨1, _⟩ => exact (lhs_axis1 _ _).trans hk)
  · have hk := contrEquiv1_symm_val dot_S8000x128_S128x128_S8000x128_1_0_0_1_n_n 128 rfl rfl k
    exact funext fun a => Fin.ext (by
      match a with
      | ⟨0, _⟩ => exact (rhs_axis0 _ _).trans hk
      | ⟨1, _⟩ => exact rhs_axis1 _ _)

/-! ## The body's arithmetic at an entry -/

/-- The body's result at row `p`, column `q` of its block is the edge stage of rows `p` of its two row blocks
    against the two weight matrices, plus the bias at `q`. -/
theorem pay1_apply (x0 x1 : Vec Ideal S8000x128 .f32) (x2 x3 : Vec Ideal S128x128 .f32) (x4 : Vec Ideal S1x128 .f32)
    (p : Fin 8000) (q : Fin 128) :
    k1_pay1 x0 x1 x2 x3 x4 (ix2 p q)
      = Cert.Spec.edge (fun k => x0 (ix2 p k)) (fun k => x1 (ix2 p k)) (fun k j => x2 (ix2 k j))
          (fun k j => x3 (ix2 k j)) (fun j => x4 (ix2 (0 : Fin 1) j)) q := by
  unfold k1_pay1 Cert.Spec.edge
  simp only [shapeCast_self]
  rw [addf_apply, addf_apply, matmul_at, matmul_at]
  simp only [mulf_apply, subf_apply]
  congr 1
  refine broadcastTo_apply x4 broadcasts_S1x128_S8000x128 (ix2 p q) (ix2 (0 : Fin 1) q) (fun a => ?_)
  match a with
  | ⟨0, _⟩ => rfl
  | ⟨1, _⟩ => rfl

/-! ## From the blocks to the array -/

theorem hz : (![0, 0] : Fin 2 → Nat) = fun _ => 0 := funext fun a => by fin_cases a <;> rfl

/-- The edge stage is a function of its five arguments and its column. -/
theorem edge_congr {a a' b b' : Fin 128 → EReal} {wt wt' wb wb' : Fin 128 → Fin 128 → EReal} {bo bo' : Fin 128 → EReal}
    {j j' : Fin 128} (ha : ∀ k, a k = a' k) (hb : ∀ k, b k = b' k) (hwt : ∀ k l, wt k l = wt' k l)
    (hwb : ∀ k l, wb k l = wb' k l) (hbo : ∀ l, bo l = bo' l) (hj : j = j') :
    Cert.Spec.edge a b wt wb bo j = Cert.Spec.edge a' b' wt' wb' bo' j' := by
  subst hj
  obtain rfl : a = a' := funext ha
  obtain rfl : b = b' := funext hb
  obtain rfl : wt = wt' := funext fun k => funext (hwt k)
  obtain rfl : wb = wb' := funext fun k => funext (hwb k)
  obtain rfl : bo = bo' := funext hbo
  rfl

/-- The array the region leaves: at edge row `e` and column `j` the edge stage of rows `e` of the two gathered
    arrays against the two weight matrices, plus the bias at `j`. -/
abbrev edgeOut (c : Dev nD) : S800000x128.Idx → EReal :=
  fun i => Cert.Spec.edge (fun k => V c main_v6 (ix2 (⟨(i 0).val, (i 0).isLt⟩ : Fin 800000) k))
          (fun k => V c main_v7 (ix2 (⟨(i 0).val, (i 0).isLt⟩ : Fin 800000) k))
          (fun k j => V c main_v8 (ix2 k j)) (fun k j => V c main_v9 (ix2 k j))
          (fun j => V c main_v10 (ix2 (0 : Fin 1) j)) ⟨(i 1).val, (i 1).isLt⟩

/-- The body's block is a given function as soon as it is so entry by entry. -/
theorem pay1_eq_of (x0 x1 : Vec Ideal S8000x128 .f32) (x2 x3 : Vec Ideal S128x128 .f32) (x4 : Vec Ideal S1x128 .f32)
    (g : S8000x128.Idx → EReal)
    (h : ∀ (p : Fin 8000) (q : Fin 128), Cert.Spec.edge (fun k => x0 (ix2 p k)) (fun k => x1 (ix2 p k)) (fun k j => x2 (ix2 k j))
          (fun k j => x3 (ix2 k j)) (fun j => x4 (ix2 (0 : Fin 1) j)) q = g (ix2 p q)) :
    k1_pay1 x0 x1 x2 x3 x4 = g := by
  funext j
  obtain ⟨p, q, rfl⟩ : ∃ (p : Fin 8000) (q : Fin 128), j = ix2 p q := ⟨j 0, j 1, eq_ix2 j⟩
  rw [pay1_apply]
  exact h p q

/-- The windows' index maps over the grid: the two row-block windows sit at the result's block, which is the point's
    number; the weights and the bias sit at the origin. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `edgeOut`. -/
theorem flushed5_eq (c : Dev nD) (t : Fin cfg1.N) :
    (dat1 (F := Ideal) V c).flushed 5 t = ((cfg1.win 5).blk t).view.read (Elt Ideal) (edgeOut V c) := by
  show (cfg1.win 5).cut (grid1.coords t) ((dat1 V c).after 5 t) = _
  rw [after1_5]
  unfold out1_5
  rw [View.canon_unit_zero hz]
  simp only [View.ld_unit_zero (S := S8000x128) hz, View.ld_unit_zero (S := S128x128) hz, View.ld_unit_zero (S := S1x128) hz]
  show k1_pay1 (iblk1 V c 0 t) (iblk1 V c 1 t) (iblk1 V c 2 t) (iblk1 V c 3 t) (iblk1 V c 4 t)
      = fun j : S8000x128.Idx => edgeOut V c (((cfg1.win 5).blk t).view.emb j)
  refine pay1_eq_of (iblk1 V c 0 t) (iblk1 V c 1 t) (iblk1 V c 2 t) (iblk1 V c 3 t) (iblk1 V c 4 t)
    (fun j : S8000x128.Idx => edgeOut V c (((cfg1.win 5).blk t).view.emb j)) (fun p q => ?_)
  obtain ⟨e0, e1, e2, e3, e4, e5, e6, e7, e8, e9, e10, e11⟩ := idx_facts t
  refine edge_congr (fun k => ?_) (fun k => ?_) (fun k l => ?_) (fun k l => ?_) (fun l => ?_) ?_
  · show V c main_v6 (((cfg1.win 0).blk t).view.emb (ix2 p k)) = V c main_v6 _
    refine congrArg (V c main_v6) (funext fun a => Fin.ext ?_)
    match a with
    | ⟨0, _⟩ => show win1_0.index t (0 : Fin 2) * 8000 + 1 * p.val = win1_5.index t (0 : Fin 2) * 8000 + 1 * p.val; omega
    | ⟨1, _⟩ => show win1_0.index t (1 : Fin 2) * 128 + 1 * k.val = k.val; omega
  · show V c main_v7 (((cfg1.win 1).blk t).view.emb (ix2 p k)) = V c main_v7 _
    refine congrArg (V c main_v7) (funext fun a => Fin.ext ?_)
    match a with
    | ⟨0, _⟩ => show win1_1.index t (0 : Fin 2) * 8000 + 1 * p.val = win1_5.index t (0 : Fin 2) * 8000 + 1 * p.val; omega
    | ⟨1, _⟩ => show win1_1.index t (1 : Fin 2) * 128 + 1 * k.val = k.val; omega
  · show V c main_v8 (((cfg1.win 2).blk t).view.emb (ix2 k l)) = V c main_v8 _
    refine congrArg (V c main_v8) (funext fun a => Fin.ext ?_)
    match a with
    | ⟨0, _⟩ => show win1_2.index t (0 : Fin 2) * 128 + 1 * k.val = k.val; omega
    | ⟨1, _⟩ => show win1_2.index t (1 : Fin 2) * 128 + 1 * l.val = l.val; omega
  · show V c main_v9 (((cfg1.win 3).blk t).view.emb (ix2 k l)) = V c main_v9 _
    refine congrArg (V c main_v9) (funext fun a => Fin.ext ?_)
    match a with
    | ⟨0, _⟩ => show win1_3.index t (0 : Fin 2) * 128 + 1 * k.val = k.val; omega
    | ⟨1, _⟩ => show win1_3.index t (1 : Fin 2) * 128 + 1 * l.val = l.val; omega
  · show V c main_v10 (((cfg1.win 4).blk t).view.emb (ix2 (0 : Fin 1) l)) = V c main_v10 _
    refine congrArg (V c main_v10) (funext fun a => Fin.ext ?_)
    match a with
    | ⟨0, _⟩ => show win1_4.index t (0 : Fin 2) * 1 + 1 * (0 : Fin 1).val = (0 : Fin 1).val; omega
    | ⟨1, _⟩ => show win1_4.index t (1 : Fin 2) * 128 + 1 * l.val = l.val; omega
  · exact Fin.ext (show q.val = win1_5.index t (1 : Fin 2) * 128 + 1 * q.val from by omega)

/-- An index of the result array is in point `t`'s block iff each coordinate is in the block's range on its axis. -/
theorem mem_blk5 (t : Fin cfg1.N) (i : S800000x128.Idx) :
    i ∈ ((cfg1.win 5).blk t).view.set ↔ ∀ a : Fin 2, win1_5.index t a * S8000x128.size a ≤ (i a).val ∧ (i a).val < win1_5.index t a * S8000x128.size a + S8000x128.size a := by
  show i ∈ ((View.whole main_v11).slice (win1_5.rect t)).set ↔ _
  rw [View.set_slice_whole, Rect.mem_set_unit]
  exact Iff.rfl

/-- Every index of the result array is in some point's block: row `r` is in the block of point `r / 8000`. -/
theorem cover5 (i : S800000x128.Idx) :
    ∃ t : Fin cfg1.N, (cfg1.win 5).flush t = true ∧ i ∈ ((cfg1.win 5).blk t).view.set := by
  have hi0 : (i 0).val < 800000 := (i 0).isLt
  have hi1 : (i 1).val < 128 := (i 1).isLt
  obtain ⟨t, ht⟩ : ∃ t : Fin cfg1.N, t.val = (i 0).val / 8000 :=
    ⟨⟨(i 0).val / 8000, show (i 0).val / 8000 < 100 from by omega⟩, rfl⟩
  obtain ⟨-, -, -, -, -, -, -, -, -, -, e10, e11⟩ := idx_facts t
  refine ⟨t, flush1_5 t, ?_⟩
  rw [mem_blk5]
  intro a
  match a with
  | ⟨0, _⟩ =>
    show win1_5.index t (0 : Fin 2) * 8000 ≤ (i 0).val ∧ (i 0).val < win1_5.index t (0 : Fin 2) * 8000 + 8000
    omega
  | ⟨1, _⟩ =>
    show win1_5.index t (1 : Fin 2) * 128 ≤ (i 1).val ∧ (i 1).val < win1_5.index t (1 : Fin 2) * 128 + 128
    omega

/-- After the second region the result array holds, at edge `e` and column `j`, the edge stage of the two gathered
    rows `e` against the two halves of the output weights, plus the bias at `j`. -/
theorem final5 (c : Dev nD) :
    (dat1 (F := Ideal) V c).arrAt 5 cfg1.N
      = fun i => Cert.Spec.edge (fun k => V c main_v6 (ix2 (⟨(i 0).val, (i 0).isLt⟩ : Fin 800000) k))
          (fun k => V c main_v7 (ix2 (⟨(i 0).val, (i 0).isLt⟩ : Fin 800000) k))
          (fun k j => V c main_v8 (ix2 k j)) (fun k j => V c main_v9 (ix2 k j))
          (fun j => V c main_v10 (ix2 (0 : Fin 1) j)) ⟨(i 1).val, (i 1).isLt⟩ :=
  (dat1 (F := Ideal) V c).arrAt_eq_of_cover 5 (edgeOut V c) (fun t _ => flushed5_eq V c t) cover5

end Cert.KernelIdeal.EdgeValue

end
-- ==== Proof.KernelValue.lean ====
/-
  The kernel program's result as one function of its arguments.

  The first region leaves the q and k halves of the node projection; the host takes rows of them by the two rows of
  the edge-index array (plain gathers, the indices being in range); the second region forms, per edge, the edge stage
  of the two gathered rows against the two halves of the output weights.  Chained, the result array is the edge
  stage of the two gathers of the node projection.
-/
import proofs.«408681_j71794673320040_3_alg».proof.Proof.Host
import proofs.«408681_j71794673320040_3_alg».proof.Proof.Proj
import proofs.«408681_j71794673320040_3_alg».proof.Proof.Edge

set_option maxRecDepth 16384

noncomputable section

namespace Cert.KernelIdeal.KernelValue

open Cert.KernelIdeal Cert.KernelIdeal.Gen Cert.KernelIdeal.HostValue
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-- The bias row the first region reads is the bias vector. -/
theorem bias_row (c : Dev nD) :
    (fun j : Fin 256 => V1 m ρ c main_v0 (ix2 (0 : Fin 1) j)) = fun j => m ((c : Thread nD τ).loc main_arg3) (ix1 j) := by
  funext j
  show W1 m ρ c (Proc.devRef .tc main_v0) (ix2 (0 : Fin 1) j) = _
  rw [W1_v0]
  refine (shapeCast_addUnit_apply ![256] (m ((c : Thread nD τ).loc main_arg3)) shapeCasts_S256_S1x256 (ix2 (0 : Fin 1) j)).trans ?_
  exact congrArg _ (funext fun a => by match a with | ⟨0, _⟩ => rfl)

/-- After the first region the q array is the first half of the node projection of the arguments. -/
theorem q_eq (c : Dev nD) : W2 m ρ c (Proc.devRef .tc main_v1_0)
    = Cert.Spec.projArr 0 (by omega) (m ((c : Thread nD τ).loc main_arg0)) (m ((c : Thread nD τ).loc main_arg2))
        (fun j => m ((c : Thread nD τ).loc main_arg3) (ix1 j)) := by
  refine (W2_arr m ρ c 3).trans ?_
  rw [ProjValue.final3 (V1 m ρ) c, bias_row m ρ c]
  show Cert.Spec.projArr 0 _ (W1 m ρ c (Proc.devRef .tc main_arg0)) (W1 m ρ c (Proc.devRef .tc main_arg2)) _ = _
  rw [W1_arg0, W1_arg2]

/-- And the k array the second half. -/
theorem k_eq (c : Dev nD) : W2 m ρ c (Proc.devRef .tc main_v1_1)
    = Cert.Spec.projArr 128 (by omega) (m ((c : Thread nD τ).loc main_arg0)) (m ((c : Thread nD τ).loc main_arg2))
        (fun j => m ((c : Thread nD τ).loc main_arg3) (ix1 j)) := by
  refine (W2_arr m ρ c 4).trans ?_
  rw [ProjValue.final4 (V1 m ρ) c, bias_row m ρ c]
  show Cert.Spec.projArr 128 _ (W1 m ρ c (Proc.devRef .tc main_arg0)) (W1 m ρ c (Proc.devRef .tc main_arg2)) _ = _
  rw [W1_arg0, W1_arg2]

/-- THE KERNEL'S RESULT, where every edge index lies in [0, 50000): the edge stage of the two gathers of the node
    projection, against the output weights and bias. -/
theorem result_eq (c : Dev nD)
    (hr : ∀ i, (0 : Int) ≤ (m ((c : Thread nD τ).loc main_arg1) i).toInt ∧ (m ((c : Thread nD τ).loc main_arg1) i).toInt < 50000) :
    W7 m ρ c (Proc.devRef .tc main_v11)
      = Cert.Spec.edgeArr
          (Host.gather gather_S50000x128_S800000x1_S800000x128_1_0_n_n_0_1_1128
            (Cert.Spec.projArr 0 (by omega) (m ((c : Thread nD τ).loc main_arg0)) (m ((c : Thread nD τ).loc main_arg2))
              (fun j => m ((c : Thread nD τ).loc main_arg3) (ix1 j)))
            (wrapCol (idxRow0 (m ((c : Thread nD τ).loc main_arg1)))))
          (Host.gather gather_S50000x128_S800000x1_S800000x128_1_0_n_n_0_1_1128
            (Cert.Spec.projArr 128 (by omega) (m ((c : Thread nD τ).loc main_arg0)) (m ((c : Thread nD τ).loc main_arg2))
              (fun j => m ((c : Thread nD τ).loc main_arg3) (ix1 j)))
            (wrapCol (idxRow1 (m ((c : Thread nD τ).loc main_arg1)))))
          (m ((c : Thread nD τ).loc main_arg4)) (fun j => m ((c : Thread nD τ).loc main_arg5) (ix1 j)) := by
  refine (W7_arr m ρ c 5).trans ?_
  rw [EdgeValue.final5 (V6 m ρ) c]
  have e6 : V6 m ρ c main_v6 = Host.gather gather_S50000x128_S800000x1_S800000x128_1_0_n_n_0_1_1128
      (Cert.Spec.projArr 0 (by omega) (m ((c : Thread nD τ).loc main_arg0)) (m ((c : Thread nD τ).loc main_arg2))
        (fun j => m ((c : Thread nD τ).loc main_arg3) (ix1 j)))
      (wrapCol (idxRow0 (m ((c : Thread nD τ).loc main_arg1)))) := by
    show W6 m ρ c (Proc.devRef .tc main_v6) = _
    rw [W6_v6, q_eq]
    exact takeMasked_of_inRange _ _ fun e => hr _
  have e7 : V6 m ρ c main_v7 = Host.gather gather_S50000x128_S800000x1_S800000x128_1_0_n_n_0_1_1128
      (Cert.Spec.projArr 128 (by omega) (m ((c : Thread nD τ).loc main_arg0)) (m ((c : Thread nD τ).loc main_arg2))
        (fun j => m ((c : Thread nD τ).loc main_arg3) (ix1 j)))
      (wrapCol (idxRow1 (m ((c : Thread nD τ).loc main_arg1)))) := by
    show W6 m ρ c (Proc.devRef .tc main_v7) = _
    rw [W6_v7, k_eq]
    exact takeMasked_of_inRange _ _ fun e => hr _
  have e8 : (fun (k j : Fin 128) => V6 m ρ c main_v8 (ix2 k j))
      = fun k j => m ((c : Thread nD τ).loc main_arg4) (ix2 (⟨k.val, by omega⟩ : Fin 256) j) := by
    funext k j
    show W6 m ρ c (Proc.devRef .tc main_v8) (ix2 k j) = _
    rw [W6_v8]
    exact extractStridedSlice_apply _ _ _ _ _ (fun a => by
      match a with
      | ⟨0, _⟩ => show k.val = 0 + k.val; omega
      | ⟨1, _⟩ => show j.val = 0 + j.val; omega)
  have e9 : (fun (k j : Fin 128) => V6 m ρ c main_v9 (ix2 k j))
      = fun k j => m ((c : Thread nD τ).loc main_arg4) (ix2 (⟨128 + k.val, by omega⟩ : Fin 256) j) := by
    funext k j
    show W6 m ρ c (Proc.devRef .tc main_v9) (ix2 k j) = _
    rw [W6_v9]
    exact extractStridedSlice_apply _ _ _ _ _ (fun a => by
      match a with
      | ⟨0, _⟩ => rfl
      | ⟨1, _⟩ => show j.val = 0 + j.val; omega)
  have e10 : (fun j : Fin 128 => V6 m ρ c main_v10 (ix2 (0 : Fin 1) j))
      = fun j => m ((c : Thread nD τ).loc main_arg5) (ix1 j) := by
    funext j
    show W6 m ρ c (Proc.devRef .tc main_v10) (ix2 (0 : Fin 1) j) = _
    rw [W6_v10]
    refine (shapeCast_addUnit_apply ![128] (m ((c : Thread nD τ).loc main_arg5)) shapeCasts_S128_S1x128 (ix2 (0 : Fin 1) j)).trans ?_
    exact congrArg _ (funext fun a => by match a with | ⟨0, _⟩ => rfl)
  rw [e6, e7, e8, e9, e10]
  rfl

end Cert.KernelIdeal.KernelValue

end
-- ==== Proof.PreRange.lean ====
/-
  What the precondition says of the edge-index array: every entry is a valid row number, 0 ≤ entry < 50000.

  The precondition is one bit: the conjunction, over the five float inputs, of "every entry is finite", and of the two
  tests "every index is at least 0" and "every index is below 50000".  A conjunction that is 1 has both parts 1, a
  reduction by `and` that is 1 met only ones, and a signed comparison that is 1 orders the two words as integers.
-/
import proofs.«408681_j71794673320040_3_alg».proof.Pre_finite_inputs
import Idealize.ShloMosaic.Lib.ReduceAll
import Idealize.ShloMosaic.Lib.ValueIdx

noncomputable section

namespace Cert.Pre_finite_inputs.Range

open Cert.Pre_finite_inputs Idealize.ShloMosaic

variable [Facts] {F : FTy → Type} [FloatOps F]

instance : Subsingleton S_.Idx := ⟨fun a b => funext fun d => d.elim0⟩

/-- Under the precondition every edge index lies in [0, 50000). -/
theorem inRange (a0 : FVec F S50000x256 .f32) (a1 : IVec S2x800000 32) (a2 : FVec F S256x256 .f32) (a3 : FVec F S256 .f32)
    (a4 : FVec F S256x128 .f32) (a5 : FVec F S128 .f32) (h : fn (F := F) a0 a1 a2 a3 a4 a5 = fun _ => 1#1)
    (i : S2x800000.Idx) : (0 : Int) ≤ (a1 i).toInt ∧ (a1 i).toInt < 50000 := by
  have h0 := congrFun h ValueIdx.ix0
  dsimp only [fn, fn_part1] at h0
  obtain ⟨h27, h30⟩ := IntOp.andi_eq_one.1 h0
  obtain ⟨h23, h26⟩ := IntOp.andi_eq_one.1 h27
  have g1 := Host.reduce_andi_all _ _ _ _ _ h26 i
  have g2 := Host.reduce_andi_all _ _ _ _ _ h30 i
  have g1' : IntOp.cmpi .sge (a1 i) 0#32 = 1#1 := g1
  have g2' : IntOp.cmpi .slt (a1 i) 50000#32 = 1#1 := g2
  rw [IntOp.cmpi_sge, show (0#32 : BitVec 32).toInt = 0 from by decide] at g1'
  rw [IntOp.cmpi_slt, show (50000#32 : BitVec 32).toInt = 50000 from by decide] at g2'
  exact ⟨g1', g2'⟩

end Cert.Pre_finite_inputs.Range

end
-- ==== Proof.Ref.lean ====
/-
  The reference's value, stage by stage.

  Its q and k arrays are the two halves of the node projection (one matrix product over 256 positions plus the bias,
  then a column slice).  Its result joins `qe ⊙ ke` and `qe − ke` into one 256-wide row and multiplies by all of the
  output weights: the joined row read at a column below 128 is the product entry and at column 128 + k the difference
  entry, so the sum over 256 positions splits into the kernel's two sums over 128.
-/
import proofs.«408681_j71794673320040_3_alg».proof.Proof.Gen.ReferenceIdeal.Read
import proofs.«408681_j71794673320040_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open scoped BigOperators

/-- The reference's q array is the first half of the node projection. -/
theorem v4_eq (x0 : (⟨S50000x256, .f32⟩ : BufTy).Contents (Elt Ideal)) (x2 : (⟨S256x256, .f32⟩ : BufTy).Contents (Elt Ideal))
    (x3 : (⟨S256, .f32⟩ : BufTy).Contents (Elt Ideal)) :
    val_main_v4 (F := Ideal) x0 x2 x3 = Cert.Spec.projArr 0 (by omega) x0 x2 (fun j => x3 (ix1 j)) := by
  funext (i : S50000x128.Idx)
  rw [val_main_v4_apply, val_main_v3_apply, val_main_v0_apply, val_main_v2_apply, val_main_v1_apply]
  unfold Cert.Spec.projArr Cert.Spec.proj
  have e1 : ∀ k : Fin 256, lidx_main_v0 (idx_main_v4 i) k = ix2 (⟨(i 0).val, (i 0).isLt⟩ : Fin 50000) k :=
    fun k => funext fun a => Fin.ext (by match a with | ⟨0, _⟩ => rfl | ⟨1, _⟩ => rfl)
  have e2 : ∀ k : Fin 256, ridx_main_v0 (idx_main_v4 i) k
      = ix2 k (⟨0 + (i 1).val, by have h : (i 1).val < 128 := (i 1).isLt; omega⟩ : Fin 256) :=
    fun k => funext fun a => Fin.ext (by match a with | ⟨0, _⟩ => rfl | ⟨1, _⟩ => exact (Nat.zero_add _).symm)
  have e3 : idx_main_v1 (idx_main_v2 (idx_main_v4 i))
      = ix1 (⟨0 + (i 1).val, by have h : (i 1).val < 128 := (i 1).isLt; omega⟩ : Fin 256) :=
    funext fun a => Fin.ext (by match a with | ⟨0, _⟩ => exact (Nat.zero_add _).symm)
  simp only [e1, e2, e3, Ideal.addf_def]

/-- The reference's k array is the second half. -/
theorem v5_eq (x0 : (⟨S50000x256, .f32⟩ : BufTy).Contents (Elt Ideal)) (x2 : (⟨S256x256, .f32⟩ : BufTy).Contents (Elt Ideal))
    (x3 : (⟨S256, .f32⟩ : BufTy).Contents (Elt Ideal)) :
    val_main_v5 (F := Ideal) x0 x2 x3 = Cert.Spec.projArr 128 (by omega) x0 x2 (fun j => x3 (ix1 j)) := by
  funext (i : S50000x128.Idx)
  rw [val_main_v5_apply, val_main_v3_apply, val_main_v0_apply, val_main_v2_apply, val_main_v1_apply]
  unfold Cert.Spec.projArr Cert.Spec.proj
  have e1 : ∀ k : Fin 256, lidx_main_v0 (idx_main_v5 i) k = ix2 (⟨(i 0).val, (i 0).isLt⟩ : Fin 50000) k :=
    fun k => funext fun a => Fin.ext (by match a with | ⟨0, _⟩ => rfl | ⟨1, _⟩ => rfl)
  have e2 : ∀ k : Fin 256, ridx_main_v0 (idx_main_v5 i) k
      = ix2 k (⟨128 + (i 1).val, by have h : (i 1).val < 128 := (i 1).isLt; omega⟩ : Fin 256) :=
    fun k => funext fun a => Fin.ext (by match a with | ⟨0, _⟩ => rfl | ⟨1, _⟩ => rfl)
  have e3 : idx_main_v1 (idx_main_v2 (idx_main_v5 i))
      = ix1 (⟨128 + (i 1).val, by have h : (i 1).val < 128 := (i 1).isLt; omega⟩ : Fin 256) :=
    funext fun a => Fin.ext (by match a with | ⟨0, _⟩ => rfl)
  simp only [e1, e2, e3, Ideal.addf_def]

/-- The reference's result is the edge stage of its two gathered arrays. -/
theorem v30_eq (x0 : (⟨S50000x256, .f32⟩ : BufTy).Contents (Elt Ideal)) (x1 : (⟨S2x800000, .i32⟩ : BufTy).Contents (Elt Ideal))
    (x2 : (⟨S256x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal)) :
    val_main_v30 (F := Ideal) x0 x1 x2 x3 x4 x5
      = Cert.Spec.edgeArr (val_main_v14 (F := Ideal) x0 x1 x2 x3) (val_main_v23 (F := Ideal) x0 x1 x2 x3) x4 (fun j => x5 (ix1 j)) := by
  funext (i : S800000x128.Idx)
  rw [val_main_v30_apply, val_main_v27_apply, val_main_v29_apply, val_main_v28_apply]
  unfold Cert.Spec.edgeArr
  -- the joined row at a column below 128 is the product entry
  have hlo : ∀ k : Fin 128, val_main_v26 (F := Ideal) x0 x1 x2 x3 (lidx_main_v27 i ⟨k.val, by omega⟩)
      = val_main_v14 (F := Ideal) x0 x1 x2 x3 (ix2 (⟨(i 0).val, (i 0).isLt⟩ : Fin 800000) k)
        * val_main_v23 (F := Ideal) x0 x1 x2 x3 (ix2 (⟨(i 0).val, (i 0).isLt⟩ : Fin 800000) k) := by
    intro k
    unfold val_main_v26
    refine (concatenate_pair_apply_left (t := S800000x256) (s₁ := S800000x128) (s₂ := S800000x128) 1
      (val_main_v24 (F := Ideal) x0 x1 x2 x3) (val_main_v25 (F := Ideal) x0 x1 x2 x3)
      concatenates_S800000x128_S800000x128_S800000x256_d1 (lidx_main_v27 i ⟨k.val, by omega⟩) rfl
      (ix2 (⟨(i 0).val, (i 0).isLt⟩ : Fin 800000) k)
      (fun b => by match b with | ⟨0, _⟩ => rfl | ⟨1, _⟩ => rfl)).trans ?_
    rw [val_main_v24_apply, Ideal.mulf_def]
  -- and at column 128 + k it is the difference entry
  have hhi : ∀ k : Fin 128, val_main_v26 (F := Ideal) x0 x1 x2 x3 (lidx_main_v27 i ⟨128 + k.val, by omega⟩)
      = val_main_v14 (F := Ideal) x0 x1 x2 x3 (ix2 (⟨(i 0).val, (i 0).isLt⟩ : Fin 800000) k)
        - val_main_v23 (F := Ideal) x0 x1 x2 x3 (ix2 (⟨(i 0).val, (i 0).isLt⟩ : Fin 800000) k) := by
    intro k
    unfold val_main_v26
    refine (concatenate_pair_apply_right (t := S800000x256) (s₁ := S800000x128) (s₂ := S800000x128) 1
      (val_main_v24 (F := Ideal) x0 x1 x2 x3) (val_main_v25 (F := Ideal) x0 x1 x2 x3)
      concatenates_S800000x128_S800000x128_S800000x256_d1 (lidx_main_v27 i ⟨128 + k.val, by omega⟩) rfl rfl
      (ix2 (⟨(i 0).val, (i 0).isLt⟩ : Fin 800000) k)
      (fun b hb => by match b with | ⟨0, _⟩ => rfl | ⟨1, _⟩ => exact absurd rfl hb)
      (by show k.val + 128 = 128 + k.val; omega)).trans ?_
    rw [val_main_v25_apply, Ideal.subf_def]
  have e4 : ∀ k : Fin 256, ridx_main_v27 i k = ix2 k (⟨(i 1).val, (i 1).isLt⟩ : Fin 128) :=
    fun k => funext fun a => Fin.ext (by match a with | ⟨0, _⟩ => rfl | ⟨1, _⟩ => rfl)
  have e5 : idx_main_v28 (idx_main_v29 i) = ix1 (⟨(i 1).val, (i 1).isLt⟩ : Fin 128) :=
    funext fun a => Fin.ext (by match a with | ⟨0, _⟩ => rfl)
  simp only [e4, e5, Ideal.addf_def]
  exact Cert.Spec.edge_of_cat
    (fun k => val_main_v14 (F := Ideal) x0 x1 x2 x3 (ix2 (⟨(i 0).val, (i 0).isLt⟩ : Fin 800000) k))
    (fun k => val_main_v23 (F := Ideal) x0 x1 x2 x3 (ix2 (⟨(i 0).val, (i 0).isLt⟩ : Fin 800000) k))
    (fun k j => x4 (ix2 k j)) (fun j => x5 (ix1 j)) ⟨(i 1).val, (i 1).isLt⟩
    (fun k => val_main_v26 (F := Ideal) x0 x1 x2 x3 (lidx_main_v27 i k)) hlo hhi

end Cert.ReferenceIdeal.RefValue

end
-- ==== Proof.Join.lean ====
/-
  The two programs name the same things.  The reference's two columns of start indices are the kernel's wrapped
  rows of the edge-index array (the same chain of operations on the same argument), and its gather reads rows the way
  the kernel's does (the same dimension numbers); so the reference's result, the edge stage of ITS two gathers of the
  node projection, is the kernel's function of the arguments.
-/
import proofs.«408681_j71794673320040_3_alg».proof.Proof.Ref
import proofs.«408681_j71794673320040_3_alg».proof.Proof.KernelValue

noncomputable section

namespace Cert.Proof.Join

open Idealize.ShloMosaic Idealize.ShloMosaic.TcCoe Idealize.ShloMosaic.ValueIdx Idealize.SL.Sem

/-- One record of gather dimension numbers, printed in both programs. -/
theorem gather_dims : Cert.ReferenceIdeal.gather_S50000x128_S800000x1_S800000x128_1_0_n_n_0_1_1128
    = Cert.KernelIdeal.gather_S50000x128_S800000x1_S800000x128_1_0_n_n_0_1_1128 := rfl

/-- The reference's first column of start indices is the kernel's wrapped row 0 of the edge-index array. -/
theorem col0 (x1 : IVec Cert.KernelIdeal.S2x800000 32) :
    Cert.ReferenceIdeal.Read.val_main_v13 (F := Ideal) x1
      = Cert.KernelIdeal.HostValue.wrapCol (Cert.KernelIdeal.HostValue.idxRow0 x1) := rfl

/-- And its second column the wrapped row 1. -/
theorem col1 (x1 : IVec Cert.KernelIdeal.S2x800000 32) :
    Cert.ReferenceIdeal.Read.val_main_v22 (F := Ideal) x1
      = Cert.KernelIdeal.HostValue.wrapCol (Cert.KernelIdeal.HostValue.idxRow1 x1) := rfl

end Cert.Proof.Join

end
-- ==== Proof.lean ====
/-
  The node-to-edge attribute kernel against its reference, over the extended reals.

  Both programs project every node row, `qk = x · W_proj + b_proj`, split the 256 columns into a q half and a k half,
  take for every edge the q row of its source node and the k row of its target node, and send the edge to
  `[qe ⊙ ke, qe − ke] · W_o + b_o`.  The kernel does the projection in one tiled region (blocks of 5000 node rows,
  each block's two halves written to two arrays) and the edge stage in another (blocks of 8000 edges), multiplying
  `qe ⊙ ke` with the top half of `W_o` and `qe − ke` with the bottom half instead of joining the two rows first; between
  the regions its host code takes the rows with a bounds check that fills a row whose index is out of range.  The
  reference joins the rows and multiplies once, and takes rows without a fill.

  The two agree where every edge index is a valid row number, 0 ≤ index < 50000 — the precondition's two index
  conjuncts — because there the kernel's bounds check never fills; the rest is exact arithmetic: a tiled matrix product
  is the whole one entry by entry, and a sum over 256 positions is the sum over the first 128 plus the sum over the
  last 128.  Only commutativity and associativity of addition are used, so the finiteness conjuncts are not needed.

  The frames of the two kernel programs are the generated ones; the reference's frame is its generated run with the
  result dropped; the idealization rewrote nothing, so `preserves` is trivial.
-/
import proofs.«408681_j71794673320040_3_alg».proof.Defs
import proofs.«408681_j71794673320040_3_alg».proof.Proof.Gen.Kernel
import proofs.«408681_j71794673320040_3_alg».proof.Proof.Gen.Kernel.Skeleton
import proofs.«408681_j71794673320040_3_alg».proof.Proof.Gen.Kernel.Launch
import proofs.«408681_j71794673320040_3_alg».proof.Proof.Gen.Kernel.Points
import proofs.«408681_j71794673320040_3_alg».proof.Proof.Gen.Kernel.Frame
import proofs.«408681_j71794673320040_3_alg».proof.Proof.Gen.KernelIdeal
import proofs.«408681_j71794673320040_3_alg».proof.Proof.Gen.KernelIdeal.Skeleton
import proofs.«408681_j71794673320040_3_alg».proof.Proof.Gen.KernelIdeal.Launch
import proofs.«408681_j71794673320040_3_alg».proof.Proof.Gen.KernelIdeal.Points
import proofs.«408681_j71794673320040_3_alg».proof.Proof.Gen.KernelIdeal.Frame
import proofs.«408681_j71794673320040_3_alg».proof.Proof.Gen.ReferenceIdeal
import proofs.«408681_j71794673320040_3_alg».proof.Proof.Gen.ReferenceIdeal.Run
import proofs.«408681_j71794673320040_3_alg».proof.Proof.Gen.ReferenceIdeal.Read
import proofs.«408681_j71794673320040_3_alg».proof.Proof.Gen.Pre_finite_inputs
import proofs.«408681_j71794673320040_3_alg».proof.Proof.KernelRun
import proofs.«408681_j71794673320040_3_alg».proof.Proof.KernelValue
import proofs.«408681_j71794673320040_3_alg».proof.Proof.PreRange
import proofs.«408681_j71794673320040_3_alg».proof.Proof.Join
import Idealize.ShloMosaic.Adequacy
import Idealize.ShloMosaic.Init

noncomputable section

namespace Cert.Proof

open Idealize.ShloMosaic Idealize.ShloMosaic.TcCoe Idealize.ShloMosaic.ValueIdx Idealize.SL.Sem

/-- The common result: the edge stage of the two gathers of the node projection of the arguments. -/
def result (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v11) :=
  Cert.Spec.edgeArr
    (Host.gather Cert.KernelIdeal.gather_S50000x128_S800000x1_S800000x128_1_0_n_n_0_1_1128
      (Cert.Spec.projArr 0 (by omega) (m ((c : Thread Cert.KernelIdeal.nD Cert.KernelIdeal.τ).loc Cert.KernelIdeal.main_arg0))
        (m ((c : Thread Cert.KernelIdeal.nD Cert.KernelIdeal.τ).loc Cert.KernelIdeal.main_arg2))
        (fun j => m ((c : Thread Cert.KernelIdeal.nD Cert.KernelIdeal.τ).loc Cert.KernelIdeal.main_arg3) (ix1 j)))
      (Cert.KernelIdeal.HostValue.wrapCol (Cert.KernelIdeal.HostValue.idxRow0
        (m ((c : Thread Cert.KernelIdeal.nD Cert.KernelIdeal.τ).loc Cert.KernelIdeal.main_arg1)))))
    (Host.gather Cert.KernelIdeal.gather_S50000x128_S800000x1_S800000x128_1_0_n_n_0_1_1128
      (Cert.Spec.projArr 128 (by omega) (m ((c : Thread Cert.KernelIdeal.nD Cert.KernelIdeal.τ).loc Cert.KernelIdeal.main_arg0))
        (m ((c : Thread Cert.KernelIdeal.nD Cert.KernelIdeal.τ).loc Cert.KernelIdeal.main_arg2))
        (fun j => m ((c : Thread Cert.KernelIdeal.nD Cert.KernelIdeal.τ).loc Cert.KernelIdeal.main_arg3) (ix1 j)))
      (Cert.KernelIdeal.HostValue.wrapCol (Cert.KernelIdeal.HostValue.idxRow1
        (m ((c : Thread Cert.KernelIdeal.nD Cert.KernelIdeal.τ).loc Cert.KernelIdeal.main_arg1)))))
    (m ((c : Thread Cert.KernelIdeal.nD Cert.KernelIdeal.τ).loc Cert.KernelIdeal.main_arg4))
    (fun j => m ((c : Thread Cert.KernelIdeal.nD Cert.KernelIdeal.τ).loc Cert.KernelIdeal.main_arg5) (ix1 j))

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, with every edge index in range, both programs end with `result`. -/
theorem algebraic : Cert.algebraic_KernelIdeal_ReferenceIdeal := by
  intro m ρ m' ρ' hpre hagree
  refine ⟨result m, ?_, ?_⟩
  · exact (θ_run Cert.KernelIdeal.defs _ _).mono
      (fun r h c => ⟨(h c).1.trans (Cert.KernelIdeal.KernelValue.result_eq m ρ c
          (fun i => Cert.Pre_finite_inputs.Range.inRange _ _ _ _ _ _ (hpre c) i)), (h c).2⟩)
      (Cert.KernelIdeal.GenRun.run_value m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5⟩ := hagree c
    rw [Cert.ReferenceIdeal.Read.val_main_v30_eq, Cert.ReferenceIdeal.RefValue.v30_eq]
    unfold Cert.ReferenceIdeal.Read.val_main_v14 Cert.ReferenceIdeal.Read.val_main_v23
    rw [Cert.ReferenceIdeal.RefValue.v4_eq, Cert.ReferenceIdeal.RefValue.v5_eq, Cert.Proof.Join.col0, Cert.Proof.Join.col1,
      Cert.Proof.Join.gather_dims, a0, a1, a2, a3, a4, a5]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
